-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S4096x16 .f32) (main_arg4 : FVec F S16x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S8192x4096 : Shape := ⟨2, ![8192, 4096]⟩
abbrev S1x4096 : Shape := ⟨2, ![1, 4096]⟩
abbrev S1024x1024 : Shape := ⟨2, ![1024, 1024]⟩
abbrev S1024x16 : Shape := ⟨2, ![1024, 16]⟩
abbrev S16x1024 : Shape := ⟨2, ![16, 1024]⟩
abbrev S1x1024 : Shape := ⟨2, ![1, 1024]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x16, .f32⟩
  | .local _ .vmem, ⟨5, _⟩ => ⟨S1024x16, .f32⟩
  | .local _ .vmem, ⟨6, _⟩ => ⟨S16x1024, .f32⟩
  | .local _ .vmem, ⟨7, _⟩ => ⟨S16x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x16_S1024x16_0_0 : ∀ a, (![0, 0] : Fin 2 → Nat) a + S1024x16.size a ≤ S1024x16.size a
  h_S1024x16 : 0 < S1024x16.numel
  inb_S16x1024_S16x1024_0_0 : ∀ a, (![0, 0] : Fin 2 → Nat) a + S16x1024.size a ≤ S16x1024.size a
  h_S16x1024 : 0 < S16x1024.numel
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x16_S16x1024_S1024x1024_1_0_0_1_n_n_wf : DotDims.WF S1024x16 S16x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S4096x16.size a
  hwx0_2 : ∀ i : grid0.Coords, EltTy.bits .f32 = 32 ∨ (Rect.block (s := S4096x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .f32 = 32 ∨ (Rect.block (s := S16x4096) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4096x4096, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4096x16_S16x4096_S4096x4096_1_0_0_1_n_n_wf : DotDims.WF S4096x16 S16x4096 S4096x4096 [1] [0] [0] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.LoraPieces.lean ====
/-
  What each control case of the kernel body leaves behind, as the body's own arithmetic (generic in the float instance).

  The grid is (8, 4, 4): row block, output-feature block, contraction tile; the contraction tile moves fastest. The body
  keeps a running [1024, 1024] accumulator in a scratch buffer across the four contraction tiles of one output block:

    first tile   (case A): the scratch is reset to zero, then the tile's product is added:  acc := step(blocks, 0)
    middle tiles (case B): the tile's product is added to what the tile before left:        acc := step(blocks, acc)
    last tile    (case C): the same, and the output block is stored:                        out := acc + bias row

  where `step` is the body's arithmetic for one tile (the generated `k0_pay2`), zero the generated `k0_pay1`, and the
  bias addition the generated `k0_pay3`. Each statement below reads the case's stores back as exactly that term.
-/
import proofs.«150796_j12171937317054_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces
open Cert.KernelIdeal Cert.KernelIdeal.Gen
variable {F : FTy → Type} [FloatOps F]
variable (c : Dev nD) (i : grid0.Coords)
  (arg3 : Memref sig .tc .vmem S1024x1024 .f32) (harg3 : arg3.IsWhole)
  (arg4 : Memref sig .tc .vmem S1024x1024 .f32) (harg4 : arg4.IsWhole)
  (arg5 : Memref sig .tc .vmem S1024x16 .f32) (harg5 : arg5.IsWhole)
  (arg6 : Memref sig .tc .vmem S16x1024 .f32) (harg6 : arg6.IsWhole)
  (arg7 : Memref sig .tc .vmem S1x1024 .f32) (harg7 : arg7.IsWhole)
  (arg8 : Memref sig .tc .vmem S1024x1024 .f32) (harg8 : arg8.IsWhole)
  (arg9 : Memref sig .tc .vmem S1024x1024 .f32) (harg9 : arg9.IsWhole)
  (x0 : Vec F S1024x1024 .f32) (x1 : Vec F S1024x1024 .f32) (x2 : Vec F S1024x16 .f32) (x3 : Vec F S16x1024 .f32)
  (x4 : Vec F S1x1024 .f32)

theorem hz : (![0, 0] : Fin 2 → Nat) = fun _ => 0 := funext fun a => by fin_cases a <;> rfl

/-- A middle tile leaves the accumulator at one more step over what it found. -/
theorem scratch_B (hc0 : ¬cond0_0 i) (hc1 : ¬cond0_1 i) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg3.read_unread, harg4.read_unread, harg5.read_unread, harg6.read_unread, harg9.read_unread,
    View.ld_unit_zero (S := S1024x1024) hz, View.ld_unit_zero (S := S1024x16) hz, View.ld_unit_zero (S := S16x1024) hz]

/-- The first tile resets the accumulator and leaves one step over zero. -/
theorem scratch_A (hc0 : cond0_0 i) (hc1 : ¬cond0_1 i) :
    sout0_A_0 c i arg3 harg3 arg4 harg4 arg5 harg5 arg6 harg6 arg7 harg7 arg8 harg8 arg9 harg9 hc0 hc1 x0 x1 x2 x3 x4 = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz]
  simp only [View.readAt_eq_ld, harg3.read_unread, harg4.read_unread, harg5.read_unread, harg6.read_unread,
    View.readCov_unit_zero (S := S1024x1024) _ hz,
    View.ld_unit_zero (S := S1024x1024) hz, View.ld_unit_zero (S := S1024x16) hz, View.ld_unit_zero (S := S16x1024) hz]

/-- The last tile leaves the accumulator at one more step over what it found, -/
theorem scratch_C (hc0 : ¬cond0_0 i) (hc1 : cond0_1 i) (xs0 : Vec F S1024x1024 .f32) :
    sout0_C_0 c i arg3 harg3 arg4 harg4 arg5 harg5 arg6 harg6 arg7 harg7 arg8 harg8 arg9 harg9 hc0 hc1 x0 x1 x2 x3 x4 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg9.read_unread,
    View.ld_unit_zero (S := S1024x1024) hz, View.ld_unit_zero (S := S1024x16) hz, View.ld_unit_zero (S := S16x1024) hz]

/-- and stores that accumulator plus the bias row into the output block. -/
theorem out_C (hc0 : ¬cond0_0 i) (hc1 : cond0_1 i) (xs0 : Vec F S1024x1024 .f32) :
    out0_C_5 c i arg3 harg3 arg4 harg4 arg5 harg5 arg6 harg6 arg7 harg7 arg8 harg8 arg9 harg9 hc0 hc1 x0 x1 x2 x3 x4 xs0 = k0_pay3 (k0_pay2 x0 x1 x2 x3 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread, harg7.read_unread,
    harg9.read_unread, View.readCov_unit_zero (S := S1024x1024) _ hz,
    View.ld_unit_zero (S := S1024x1024) hz, View.ld_unit_zero (S := S1024x16) hz, View.ld_unit_zero (S := S16x1024) hz,
    View.ld_unit_zero (S := S1x1024) hz]

end Cert.KernelIdeal.Pieces

end
-- ==== Proof.LoraPayload.lean ====
/-
  The body's arithmetic, read at one element, over the extended reals.

  For one contraction tile, with `xb` the [1024, 1024] block of activations (rows × tile columns), `wb` the block of the
  base weight (output features × tile columns), `ab` the [1024, 16] block of the first low-rank factor and `bb` the
  [16, 1024] block of the second:

    delta[q, k]  = ∑ r, ab[q, r] · bb[r, k]                       (rank-16 product, into a zero accumulator)
    merged[q, k] = wb[q, k] + 1 · delta[q, k]
    step[p, q]   = acc[p, q] + ∑ k, xb[p, k] · merged[q, k]       (the product with the TRANSPOSE of merged, into zero)

  The narrowing of each operand to sixteen bits before a product changes nothing over the extended reals, and the
  transpose only swaps the two coordinates. The last tile's store adds the bias row, broadcast down the rows.
-/
import proofs.«150796_j12171937317054_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload
open Cert.KernelIdeal Cert.KernelIdeal.Gen

/-! ## The rank-16 product at an element -/

theorem lhs_delta_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lhs_delta_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem rhs_delta_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem rhs_delta_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- The rank-16 product into a zero accumulator, at `(q, k)`: the sum over the 16 of row `q` times column `k`. -/
theorem delta_apply (l : FVec Ideal S1024x16 .bf16) (r : FVec Ideal S16x1024 .bf16) (q k : Fin 1024) :
    matmul (F := Ideal) dot_S1024x16_S16x1024_S1024x1024_1_0_0_1_n_n none l r (constant (F := Ideal) S1024x1024 .f32 0x00000000#32) (ix2 q k)
      = ∑ t : Fin 16, l (ix2 q t) * r (ix2 t k) := by
  simp only [matmul]
  rw [Ideal.matmul_constant_zero_apply, ← Equiv.sum_comp (ValueIdx.contrEquiv1 dot_S1024x16_S16x1024_S1024x1024_1_0_0_1_n_n 16 rfl rfl).symm]
  refine Finset.sum_congr rfl fun t _ => ?_
  have ht := ValueIdx.contrEquiv1_symm_val dot_S1024x16_S16x1024_S1024x1024_1_0_0_1_n_n 16 rfl rfl t
  have el : dot_S1024x16_S16x1024_S1024x1024_1_0_0_1_n_n.lhsIdx (ix2 q k) ((ValueIdx.contrEquiv1 dot_S1024x16_S16x1024_S1024x1024_1_0_0_1_n_n 16 rfl rfl).symm t) = ix2 q t := funext fun a => Fin.ext (by
    match a with
    | ⟨0, _⟩ => exact lhs_delta_0 _ _
    | ⟨1, _⟩ => exact (lhs_delta_1 _ _).trans ht)
  have er : dot_S1024x16_S16x1024_S1024x1024_1_0_0_1_n_n.rhsIdx (ix2 q k) ((ValueIdx.contrEquiv1 dot_S1024x16_S16x1024_S1024x1024_1_0_0_1_n_n 16 rfl rfl).symm t) = ix2 t k := funext fun a => Fin.ext (by
    match a with
    | ⟨0, _⟩ => exact (rhs_delta_0 _ _).trans ht
    | ⟨1, _⟩ => exact rhs_delta_1 _ _)
  rw [el, er]

/-! ## The main product at an element -/

theorem lhs_main_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_main_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_main_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_main_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The main product into a zero accumulator, at `(p, q)`: the sum over the tile's 1024 columns of row `p` of the left
    operand times column `q` of the right. -/
theorem main_apply (l : FVec Ideal S1024x1024 .bf16) (r : FVec Ideal S1024x1024 .bf16) (p q : Fin 1024) :
    matmul (F := Ideal) dot_S1024x1024_S1024x1024_S1024x1024_1_0_0_1_n_n none l r (constant (F := Ideal) S1024x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_main_0 _ _
    | ⟨1, _⟩ => exact (lhs_main_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_main_0 _ _).trans hk
    | ⟨1, _⟩ => exact rhs_main_1 _ _)
  rw [el, er]

/-! ## The three payloads at an element -/

/-- The reset value is the zero word everywhere. -/
theorem zero_apply (j : S1024x1024.Idx) : (k0_pay1 (F := Ideal)) j = Ideal.ofBits .f32 0x00000000#32 := by
  unfold k0_pay1
  rw [shapeCast_self]
  rfl

/-- One tile's step at `(p, q)`. -/
theorem step_apply (xb wb : Vec Ideal S1024x1024 .f32) (ab : Vec Ideal S1024x16 .f32) (bb : Vec Ideal S16x1024 .f32)
    (acc : Vec Ideal S1024x1024 .f32) (p q : Fin 1024) :
    k0_pay2 (F := Ideal) xb wb ab bb acc (ix2 p q)
      = acc (ix2 p q) + ∑ k : Fin 1024, xb (ix2 p k)
          * (wb (ix2 q k) + Ideal.ofBits .f32 0x3F800000#32 * ∑ t : Fin 16, ab (ix2 q t) * bb (ix2 t k)) := by
  unfold k0_pay2
  dsimp only
  rw [shapeCast_self, shapeCast_self]
  refine congrArg (acc (ix2 p q) + ·) ?_
  refine (main_apply _ _ p q).trans (Finset.sum_congr rfl fun k _ => ?_)
  refine congrArg (xb (ix2 p k) * ·) ?_
  refine (transpose_ix2_apply _ _ k q).trans ?_
  refine congrArg (fun d => wb (ix2 q k) + Ideal.ofBits .f32 0x3F800000#32 * d) ?_
  exact delta_apply _ _ q k

/-- The last tile's store at `(p, q)`: the accumulator plus the bias row's entry `q`. -/
theorem bias_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  rw [shapeCast_self]
  exact congrArg (acc (ix2 p q) + ·) (broadcastTo_1b_ab_apply _ _ p q)

end Cert.KernelIdeal.Payload

end
-- ==== Proof.LoraAlgebra.lean ====
/-
  The law that joins the two sides, at ONE output element (row `P` of the flattened activations, output feature `Q`).

  With `xr` the row of `x`, `wr` the row of `W`, `ar` the row of `A` (rank 16) and `bm` the matrix `B`:

    fused, tile by tile over the contraction axis (four tiles of 1024 columns, accumulated left to right from zero,
    the bias added last):
        ((((0 + T 0) + T 1) + T 2) + T 3) + β,   T kt = ∑ k, xr (kt, k) · (wr (kt, k) + 1 · ∑ r, ar r · bm r (kt, k))

    unfused (the base projection plus the bias, then the low-rank update):
        (∑ i, xr i · wr i + β) + 1 · ∑ i, xr i · ∑ r, ar r · bm r i

  Splitting the 4096 columns into four tiles and regrouping the sums holds in any commutative additive monoid; what
  needs the entries FINITE is the one distributive step `x · (w + d) = x · w + x · d`, which fails on the extended
  reals when `w` and `d` are opposite infinities. So the law is proved over the reals and carried back.
-/
import Idealize.ShloMosaic.PureOps.Ideal.Laws

noncomputable section

namespace Cert.Lora

open Idealize.ShloMosaic

/-- Column `k` of contraction tile `kt`: column `1024·kt + k` of the 4096. -/
abbrev col (kt : Fin 4) (k : Fin 1024) : Fin 4096 :=
  ⟨1024 * kt.val + k.val, by have := kt.isLt; have := k.isLt; omega⟩

/-- A finite sum of reals, carried into the extended reals, is the sum of the carried terms. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the 4096 columns is the sum over the four tiles of the sums over each tile's 1024 columns. -/
theorem sum_tiles {M : Type*} [AddCommMonoid M] (h : Fin 4096 → M) :
    ∑ i : Fin 4096, h i = ∑ kt : Fin 4, ∑ k : Fin 1024, h (col kt k) := by
  rw [← Fintype.sum_prod_type' (f := fun kt k => h (col kt k))]
  refine (Fintype.sum_equiv (finProdFinEquiv (m := 4) (n := 1024)) (fun x => h (col x.1 x.2)) h fun x => ?_).symm
  congr 1
  apply Fin.ext
  simp only [col, finProdFinEquiv, Equiv.coe_fn_mk]
  omega

/-- One contraction tile's contribution to the fused product. -/
def tile (xr wr : Fin 4096 → EReal) (ar : Fin 16 → EReal) (bm : Fin 16 → Fin 4096 → EReal) (one : EReal) (kt : Fin 4) : EReal :=
  ∑ k : Fin 1024, xr (col kt k) * (wr (col kt k) + one * ∑ r : Fin 16, ar r * bm r (col kt k))

/-- The fused value: the four tiles accumulated in order from `z`, then the bias. -/
def fused (xr wr : Fin 4096 → EReal) (ar : Fin 16 → EReal) (bm : Fin 16 → Fin 4096 → EReal) (β z one : EReal) : EReal :=
  ((((z + tile xr wr ar bm one 0) + tile xr wr ar bm one 1) + tile xr wr ar bm one 2) + tile xr wr ar bm one 3) + β

/-- The unfused value: base projection plus bias, then the scaled low-rank update. -/
def unfused (xr wr : Fin 4096 → EReal) (ar : Fin 16 → EReal) (bm : Fin 16 → Fin 4096 → EReal) (β one : EReal) : EReal :=
  (∑ i : Fin 4096, xr i * wr i + β) + one * ∑ i : Fin 4096, xr i * ∑ r : Fin 16, ar r * bm r i

/-- The law over the reals. -/
theorem fused_eq_unfused_real (x w : Fin 4096 → ℝ) (a : Fin 16 → ℝ) (b : Fin 16 → Fin 4096 → ℝ) (β : ℝ) :
    ((((0 + ∑ k : Fin 1024, x (col 0 k) * (w (col 0 k) + 1 * ∑ r : Fin 16, a r * b r (col 0 k)))
        + ∑ k : Fin 1024, x (col 1 k) * (w (col 1 k) + 1 * ∑ r : Fin 16, a r * b r (col 1 k)))
        + ∑ k : Fin 1024, x (col 2 k) * (w (col 2 k) + 1 * ∑ r : Fin 16, a r * b r (col 2 k)))
        + ∑ k : Fin 1024, x (col 3 k) * (w (col 3 k) + 1 * ∑ r : Fin 16, a r * b r (col 3 k))) + β
      = (∑ i : Fin 4096, x i * w i + β) + 1 * ∑ i : Fin 4096, x i * ∑ r : Fin 16, a r * b r i := by
  rw [sum_tiles (fun i => x i * w i), sum_tiles (fun i => x i * ∑ r : Fin 16, a r * b r i), Fin.sum_univ_four, Fin.sum_univ_four]
  simp only [mul_add, one_mul, Finset.sum_add_distrib]
  ring

/-- THE LAW: on finite entries the fused value is the unfused one. -/
theorem fused_eq_unfused (xr wr : Fin 4096 → EReal) (ar : Fin 16 → EReal) (bm : Fin 16 → Fin 4096 → EReal) (β z one : EReal)
    (hx : ∀ i, ∃ r : ℝ, xr i = (r : EReal)) (hw : ∀ i, ∃ r : ℝ, wr i = (r : EReal)) (ha : ∀ i, ∃ r : ℝ, ar i = (r : EReal))
    (hb : ∀ r i, ∃ v : ℝ, bm r i = (v : EReal)) (hβ : ∃ r : ℝ, β = (r : EReal)) (hz : z = 0) (hone : one = 1) :
    fused xr wr ar bm β z one = unfused xr wr ar bm β one := by
  choose x hx using hx
  choose w hw using hw
  choose a ha using ha
  choose b hb using hb
  obtain ⟨β', rfl⟩ := hβ
  obtain rfl : xr = fun i => (x i : EReal) := funext hx
  obtain rfl : wr = fun i => (w i : EReal) := funext hw
  obtain rfl : ar = fun i => (a i : EReal) := funext ha
  obtain rfl : bm = fun r i => (b r i : EReal) := funext fun r => funext (hb r)
  subst hz hone
  unfold fused unfused tile
  simp only [← EReal.coe_mul, ← coe_sum, ← EReal.coe_add, ← EReal.coe_one, ← EReal.coe_zero]
  exact congrArg _ (fused_eq_unfused_real x w a b β')

end Cert.Lora

end
-- ==== Proof.LoraSpec.lean ====
/-
  The specification: the result array, f32[4, 2048, 4096], as ONE function of the five argument arrays, element by element,
  in two forms.

  At output element `(b, s, o)` the row of activations is `x[b, s, ·]`, the row of the base weight `W[o, ·]`, the row of
  the first low-rank factor `A[o, ·]` (16 entries), the second factor `B` whole, and the bias `bias[o]`.
  `outFused` accumulates the four contraction tiles of the merged weight `W + 1 · (A · B)` in order from zero and adds the
  bias last; `outUnfused` adds the bias to the base projection and then the scaled low-rank update. On finite entries the
  two are the same array (Proof/LoraAlgebra.lean's law, element by element).
-/
import proofs.«150796_j12171937317054_1_alg».proof.Proof.LoraAlgebra
import Idealize.ShloMosaic.Lib.ValueIdx

noncomputable section

namespace Cert.Lora

open Idealize.ShloMosaic Idealize.ShloMosaic.ValueIdx

abbrev Sx : Shape := ⟨3, ![4, 2048, 4096]⟩
abbrev SW : Shape := ⟨2, ![4096, 4096]⟩
abbrev Sbias : Shape := ⟨1, ![4096]⟩
abbrev SA : Shape := ⟨2, ![4096, 16]⟩
abbrev SB : Shape := ⟨2, ![16, 4096]⟩

/-- The row of activations an output element contracts: `x[b, s, ·]`. -/
abbrev xrow (x : Sx.Idx → EReal) (i : Sx.Idx) : Fin 4096 → EReal := fun k => x (ix3 (i 0) (i 1) k)
/-- The row of the base weight: `W[o, ·]`. -/
abbrev wrow (W : SW.Idx → EReal) (i : Sx.Idx) : Fin 4096 → EReal := fun k => W (ix2 (i 2) k)
/-- The row of the first low-rank factor: `A[o, ·]`. -/
abbrev arow (A : SA.Idx → EReal) (i : Sx.Idx) : Fin 16 → EReal := fun r => A (ix2 (i 2) r)
/-- The second low-rank factor as a function of its two coordinates. -/
abbrev bmat (B : SB.Idx → EReal) : Fin 16 → Fin 4096 → EReal := fun r k => B (ix2 r k)

/-- The result, tile by tile over the merged weight. -/
def outFused (x : Sx.Idx → EReal) (W : SW.Idx → EReal) (bias : Sbias.Idx → EReal) (A : SA.Idx → EReal) (B : SB.Idx → EReal)
    (z one : EReal) : Sx.Idx → EReal :=
  fun i => fused (xrow x i) (wrow W i) (arow A i) (bmat B) (bias (ix1 (i 2))) z one

/-- The result, base projection and low-rank update apart. -/
def outUnfused (x : Sx.Idx → EReal) (W : SW.Idx → EReal) (bias : Sbias.Idx → EReal) (A : SA.Idx → EReal) (B : SB.Idx → EReal)
    (one : EReal) : Sx.Idx → EReal :=
  fun i => unfused (xrow x i) (wrow W i) (arow A i) (bmat B) (bias (ix1 (i 2))) one

/-- On arrays of finite entries the two forms are one array. -/
theorem outFused_eq_outUnfused (x : Sx.Idx → EReal) (W : SW.Idx → EReal) (bias : Sbias.Idx → EReal) (A : SA.Idx → EReal)
    (B : SB.Idx → EReal) (z one : EReal)
    (hx : ∀ i, ∃ r : ℝ, x i = (r : EReal)) (hW : ∀ i, ∃ r : ℝ, W i = (r : EReal)) (hbias : ∀ i, ∃ r : ℝ, bias i = (r : EReal))
    (hA : ∀ i, ∃ r : ℝ, A i = (r : EReal)) (hB : ∀ i, ∃ r : ℝ, B i = (r : EReal)) (hz : z = 0) (hone : one = 1) :
    outFused x W bias A B z one = outUnfused x W bias A B one :=
  funext fun i => fused_eq_unfused _ _ _ _ _ _ _ (fun _ => hx _) (fun _ => hW _) (fun _ => hA _) (fun _ _ => hB _) (hbias _) hz hone

end Cert.Lora

end
-- ==== Proof.LoraBlocks.lean ====
/-
  From the body's per-tile arithmetic to the whole [8192, 4096] output array of the kernel region.

  Grid point `t` of the 128 has coordinates (row block `t / 16`, output-feature block `t / 4 % 4`, contraction tile
  `t % 4`). At point `t` the windows hold
      activations rows `1024·(t/16) + p`,            columns `1024·(t%4) + k`
      base weight rows `1024·(t/4%4) + q`,           columns `1024·(t%4) + k`
      first factor rows `1024·(t/4%4) + q`,          all 16 columns
      second factor all 16 rows,                      columns `1024·(t%4) + k`
      bias (as one row) columns `1024·(t/4%4) + q`.
  The output block (row block, feature block) is written back at the last contraction tile only (`t % 4 = 3`), and what
  is written there is, unrolling the accumulator back over the three points before it to the reset at `t - 3`,
      ((((0 + tile 0) + tile 1) + tile 2) + tile 3) + bias
  of the rows above: the 2-D specification `out2d` at (`1024·(t/16) + p`, `1024·(t/4%4) + q`). Every element of the
  output lies in exactly such a block, so after the run the whole array is `out2d`.
-/
import proofs.«150796_j12171937317054_1_alg».proof.Proof.Gen.KernelIdeal.Frame
import proofs.«150796_j12171937317054_1_alg».proof.Proof.LoraPieces
import proofs.«150796_j12171937317054_1_alg».proof.Proof.LoraPayload
import proofs.«150796_j12171937317054_1_alg».proof.Proof.LoraSpec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.LoraValue
open Cert.KernelIdeal Cert.KernelIdeal.Gen

variable (m : (ℓ : Loc nD τ sig) → Buf (Elt Ideal) ℓ) (ρ : Dev nD → PrngReg)

/-! ## The 2-D specification -/

/-- The region's output as one function of the arrays the region finds: at (row `P`, feature `Q`) the fused value of
    row `P` of the activations, row `Q` of the base weight and of the first factor, the second factor, and bias entry `Q`. -/
def out2d (X : Vec Ideal S8192x4096 .f32) (W : Vec Ideal S4096x4096 .f32) (C : Vec Ideal S1x4096 .f32)
    (A : Vec Ideal S4096x16 .f32) (B : Vec Ideal S16x4096 .f32) : Vec Ideal S8192x4096 .f32 :=
  fun j => Cert.Lora.fused (fun i => X (ix2 (j 0) i)) (fun i => W (ix2 (j 1) i)) (fun r => A (ix2 (j 1) r))
    (fun r i => B (ix2 r i)) (C (ix2 (0 : Fin 1) (j 1))) (Ideal.ofBits .f32 0x00000000#32) (Ideal.ofBits .f32 0x3F800000#32)

/-! ## The arrays the region finds, and the windows' blocks, at their literal types -/

abbrev Xa (c : Dev nD) : Vec Ideal S8192x4096 .f32 := V m c main_v0
abbrev Wa (c : Dev nD) : Vec Ideal S4096x4096 .f32 := V m c main_arg1
abbrev Aa (c : Dev nD) : Vec Ideal S4096x16 .f32 := V m c main_arg3
abbrev Ba (c : Dev nD) : Vec Ideal S16x4096 .f32 := V m c main_arg4
abbrev Ca (c : Dev nD) : Vec Ideal S1x4096 .f32 := V m c main_v1

abbrev xb (c : Dev nD) (t : Fin cfg0.N) : Vec Ideal S1024x1024 .f32 := iblk m c 0 t
abbrev wb (c : Dev nD) (t : Fin cfg0.N) : Vec Ideal S1024x1024 .f32 := iblk m c 1 t
abbrev ab (c : Dev nD) (t : Fin cfg0.N) : Vec Ideal S1024x16 .f32 := iblk m c 2 t
abbrev bb (c : Dev nD) (t : Fin cfg0.N) : Vec Ideal S16x1024 .f32 := iblk m c 3 t
abbrev cb (c : Dev nD) (t : Fin cfg0.N) : Vec Ideal S1x1024 .f32 := iblk m c 4 t

/-! ## Where each window's block sits -/

/-- The printed index maps, decided over the grid. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 4 % 4 ∧ win0_2.index t (1 : Fin 2) = 0
    ∧ win0_3.index t (0 : Fin 2) = 0 ∧ win0_3.index t (1 : Fin 2) = t.val % 4
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

theorem xb_apply (c : Dev nD) (t : Fin cfg0.N) (p k : Fin 1024) (P : Fin 8192) (K : Fin 4096)
    (hP : P.val = 1024 * (t.val / 16) + p.val) (hK : K.val = 1024 * (t.val % 4) + k.val) :
    xb m c t (ix2 p k) = Xa m c (ix2 P K) := by
  obtain ⟨e0, e1, -⟩ := idx_facts t
  show V m c main_v0 (((cfg0.win 0).blk t).view.emb (ix2 p k)) = V m c main_v0 (ix2 P K)
  refine congrArg _ (funext fun a => Fin.ext ?_)
  match a with
  | ⟨0, _⟩ => show win0_0.index t (0 : Fin 2) * 1024 + 1 * p.val = P.val; omega
  | ⟨1, _⟩ => show win0_0.index t (1 : Fin 2) * 1024 + 1 * k.val = K.val; omega

theorem wb_apply (c : Dev nD) (t : Fin cfg0.N) (q k : Fin 1024) (Q K : Fin 4096)
    (hQ : Q.val = 1024 * (t.val / 4 % 4) + q.val) (hK : K.val = 1024 * (t.val % 4) + k.val) :
    wb m c t (ix2 q k) = Wa m c (ix2 Q K) := by
  obtain ⟨-, -, e0, e1, -⟩ := idx_facts t
  show V m c main_arg1 (((cfg0.win 1).blk t).view.emb (ix2 q k)) = V m c main_arg1 (ix2 Q K)
  refine congrArg _ (funext fun a => Fin.ext ?_)
  match a with
  | ⟨0, _⟩ => show win0_1.index t (0 : Fin 2) * 1024 + 1 * q.val = Q.val; omega
  | ⟨1, _⟩ => show win0_1.index t (1 : Fin 2) * 1024 + 1 * k.val = K.val; omega

theorem ab_apply (c : Dev nD) (t : Fin cfg0.N) (q : Fin 1024) (r : Fin 16) (Q : Fin 4096)
    (hQ : Q.val = 1024 * (t.val / 4 % 4) + q.val) :
    ab m c t (ix2 q r) = Aa m c (ix2 Q r) := by
  obtain ⟨-, -, -, -, e0, e1, -⟩ := idx_facts t
  show V m c main_arg3 (((cfg0.win 2).blk t).view.emb (ix2 q r)) = V m c main_arg3 (ix2 Q r)
  refine congrArg _ (funext fun a => Fin.ext ?_)
  match a with
  | ⟨0, _⟩ => show win0_2.index t (0 : Fin 2) * 1024 + 1 * q.val = Q.val; omega
  | ⟨1, _⟩ => show win0_2.index t (1 : Fin 2) * 16 + 1 * r.val = r.val; omega

theorem bb_apply (c : Dev nD) (t : Fin cfg0.N) (r : Fin 16) (k : Fin 1024) (K : Fin 4096)
    (hK : K.val = 1024 * (t.val % 4) + k.val) :
    bb m c t (ix2 r k) = Ba m c (ix2 r K) := by
  obtain ⟨-, -, -, -, -, -, e0, e1, -⟩ := idx_facts t
  show V m c main_arg4 (((cfg0.win 3).blk t).view.emb (ix2 r k)) = V m c main_arg4 (ix2 r K)
  refine congrArg _ (funext fun a => Fin.ext ?_)
  match a with
  | ⟨0, _⟩ => show win0_3.index t (0 : Fin 2) * 16 + 1 * r.val = r.val; omega
  | ⟨1, _⟩ => show win0_3.index t (1 : Fin 2) * 1024 + 1 * k.val = K.val; omega

theorem cb_apply (c : Dev nD) (t : Fin cfg0.N) (q : Fin 1024) (Q : Fin 4096)
    (hQ : Q.val = 1024 * (t.val / 4 % 4) + q.val) :
    cb m c t (ix2 (0 : Fin 1) q) = Ca m c (ix2 (0 : Fin 1) Q) := by
  obtain ⟨-, -, -, -, -, -, -, -, e0, e1, -⟩ := idx_facts t
  show V m c main_v1 (((cfg0.win 4).blk t).view.emb (ix2 (0 : Fin 1) q)) = V m c main_v1 (ix2 (0 : Fin 1) Q)
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * q.val = Q.val; omega

/-! ## The accumulator, point by point -/

/-- The point before `t`. -/
abbrev prev (t : Fin cfg0.N) : Fin cfg0.N := ⟨t.val - 1, Nat.lt_of_le_of_lt (Nat.sub_le _ _) t.isLt⟩

/-- One step of the accumulator at point `t`: the body's arithmetic on the point's blocks. -/
def stepAt (c : Dev nD) (t : Fin cfg0.N) (acc : Vec Ideal S1024x1024 .f32) : Vec Ideal S1024x1024 .f32 :=
  k0_pay2 (F := Ideal) (xb m c t) (wb m c t) (ab m c t) (bb m c t) acc

/-- At a first contraction tile the accumulator is one step over zero. -/
theorem acc_first (c : Dev nD) (t : Fin cfg0.N) (h0 : t.val % 4 = 0) :
    (outsAt0 m c t.val t.isLt).2 = stepAt m c t (k0_pay1 (F := Ideal)) := by
  have h1 : ¬t.val % 4 = 3 := by omega
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) ((hcond0_0 t).mpr h0) (fun h => h1 ((hcond0_1 t).mp h))

/-- At any later tile it is one step over what the point before left. -/
theorem acc_next (c : Dev nD) (t : Fin cfg0.N) (h0 : ¬t.val % 4 = 0) :
    (outsAt0 m c t.val t.isLt).2 = stepAt m c t (outsAt0 m c (prev t).val (prev t).isLt).2 := by
  by_cases h1 : t.val % 4 = 3
  · rw [outsAt0_C m c t h0 h1]
    dsimp only
    exact Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (fun h => h0 ((hcond0_0 t).mp h)) ((hcond0_1 t).mpr h1) (outsAt0 m c (t.val - 1) (Nat.lt_of_le_of_lt (Nat.sub_le _ _) t.isLt)).2
  · rw [outsAt0_B m c t h0 h1]
    dsimp only
    exact Pieces.scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (fun h => h0 ((hcond0_0 t).mp h)) (fun h => h1 ((hcond0_1 t).mp h)) (outsAt0 m c (t.val - 1) (Nat.lt_of_le_of_lt (Nat.sub_le _ _) t.isLt)).2

/-- At a last tile the output block holds that accumulator plus the bias row. -/
theorem out_last (c : Dev nD) (t : Fin cfg0.N) (h3 : t.val % 4 = 3) :
    (outsAt0 m c t.val t.isLt).1
      = k0_pay3 (F := Ideal) (stepAt m c t (outsAt0 m c (prev t).val (prev t).isLt).2) (cb m c t) := by
  have h0 : ¬t.val % 4 = 0 := by omega
  rw [outsAt0_C m c t h0 h3]
  dsimp only
  exact Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (fun h => h0 ((hcond0_0 t).mp h)) ((hcond0_1 t).mpr h3) (outsAt0 m c (t.val - 1) (Nat.lt_of_le_of_lt (Nat.sub_le _ _) t.isLt)).2

/-- So at a last tile the output block is four steps over zero, plus the bias row. -/
theorem flush_contents (c : Dev nD) (t : Fin cfg0.N) (h3 : t.val % 4 = 3) :
    (outsAt0 m c t.val t.isLt).1
      = k0_pay3 (F := Ideal) (stepAt m c t (stepAt m c (prev t) (stepAt m c (prev (prev t))
          (stepAt m c (prev (prev (prev t))) (k0_pay1 (F := Ideal)))))) (cb m c t) := by
  have e1 := acc_next m c (prev t) (by show ¬(t.val - 1) % 4 = 0; omega)
  have e2 := acc_next m c (prev (prev t)) (by show ¬(t.val - 1 - 1) % 4 = 0; omega)
  have e3 := acc_first m c (prev (prev (prev t))) (by show (t.val - 1 - 1 - 1) % 4 = 0; omega)
  rw [out_last m c t h3, e1, e2, e3]

/-! ## One tile's term, in the arrays' own coordinates -/

theorem stepAt_apply (c : Dev nD) (t : Fin cfg0.N) (acc : Vec Ideal S1024x1024 .f32) (p q : Fin 1024) :
    stepAt m c t acc (ix2 p q)
      = acc (ix2 p q) + ∑ k : Fin 1024, xb m c t (ix2 p k)
          * (wb m c t (ix2 q k) + Ideal.ofBits .f32 0x3F800000#32 * ∑ r : Fin 16, ab m c t (ix2 q r) * bb m c t (ix2 r k)) :=
  Payload.step_apply (xb m c t) (wb m c t) (ab m c t) (bb m c t) acc p q

/-- The term point `s` adds at block element `(p, q)` is tile `s % 4` of the fused value at the element's global row and
    feature. -/
theorem tile_at (c : Dev nD) (s : Fin cfg0.N) (kt : Fin 4) (hs : s.val % 4 = kt.val) (p q : Fin 1024)
    (P : Fin 8192) (Q : Fin 4096) (hP : P.val = 1024 * (s.val / 16) + p.val) (hQ : Q.val = 1024 * (s.val / 4 % 4) + q.val) :
    ∑ k : Fin 1024, xb m c s (ix2 p k)
        * (wb m c s (ix2 q k) + Ideal.ofBits .f32 0x3F800000#32 * ∑ r : Fin 16, ab m c s (ix2 q r) * bb m c s (ix2 r k))
      = Cert.Lora.tile (fun i => Xa m c (ix2 P i)) (fun i => Wa m c (ix2 Q i)) (fun r => Aa m c (ix2 Q r))
          (fun r i => Ba m c (ix2 r i)) (Ideal.ofBits .f32 0x3F800000#32) kt := by
  unfold Cert.Lora.tile
  refine Finset.sum_congr rfl fun k _ => ?_
  have hK : (Cert.Lora.col kt k).val = 1024 * (s.val % 4) + k.val := by show 1024 * kt.val + k.val = _; omega
  rw [xb_apply m c s p k P (Cert.Lora.col kt k) hP hK, wb_apply m c s q k Q (Cert.Lora.col kt k) hQ hK]
  refine congrArg (fun d => Xa m c (ix2 P (Cert.Lora.col kt k)) * (Wa m c (ix2 Q (Cert.Lora.col kt k)) + Ideal.ofBits .f32 0x3F800000#32 * d)) ?_
  refine Finset.sum_congr rfl fun r _ => ?_
  rw [ab_apply m c s q r Q hQ, bb_apply m c s r k (Cert.Lora.col kt k) hK]

/-! ## What a flush point writes back -/

/-- At a last tile the output block at `j` is the 2-D specification at the element's global row and feature. -/
theorem flush_apply (c : Dev nD) (t : Fin cfg0.N) (h3 : t.val % 4 = 3) (j : S1024x1024.Idx) (P : Fin 8192) (Q : Fin 4096)
    (hP : P.val = 1024 * (t.val / 16) + (j 0).val) (hQ : Q.val = 1024 * (t.val / 4 % 4) + (j 1).val) :
    (outsAt0 m c t.val t.isLt).1 j = out2d (Xa m c) (Wa m c) (Ca m c) (Aa m c) (Ba m c) (ix2 P Q) := by
  obtain ⟨p, q, rfl⟩ : ∃ (p q : Fin 1024), j = ix2 p q := ⟨j 0, j 1, eq_ix2 j⟩
  have hN : t.val < 128 := lt_of_lt_of_eq t.isLt (show cfg0.N = 128 from N_0)
  have hP' : P.val = 1024 * (t.val / 16) + p.val := hP
  have hQ' : Q.val = 1024 * (t.val / 4 % 4) + q.val := hQ
  rw [flush_contents m c t h3, Payload.bias_apply, stepAt_apply, stepAt_apply, stepAt_apply, stepAt_apply, Payload.zero_apply]
  rw [tile_at m c t 3 (by show t.val % 4 = 3; exact h3) p q P Q hP hQ,
    tile_at m c (prev t) 2 (by show (t.val - 1) % 4 = 2; omega) p q P Q (by show P.val = 1024 * ((t.val - 1) / 16) + p.val; omega) (by show Q.val = 1024 * ((t.val - 1) / 4 % 4) + q.val; omega),
    tile_at m c (prev (prev t)) 1 (by show (t.val - 1 - 1) % 4 = 1; omega) p q P Q (by show P.val = 1024 * ((t.val - 1 - 1) / 16) + p.val; omega) (by show Q.val = 1024 * ((t.val - 1 - 1) / 4 % 4) + q.val; omega),
    tile_at m c (prev (prev (prev t))) 0 (by show (t.val - 1 - 1 - 1) % 4 = 0; omega) p q P Q (by show P.val = 1024 * ((t.val - 1 - 1 - 1) / 16) + p.val; omega) (by show Q.val = 1024 * ((t.val - 1 - 1 - 1) / 4 % 4) + q.val; omega),
    cb_apply m c t q Q hQ]
  rfl

/-- WHAT A FLUSH POINT WRITES BACK is its block of the 2-D specification. -/
theorem flushed_eq (c : Dev nD) (t : Fin cfg0.N) (hf : (cfg0.win 5).flush t = true) :
    (dats m 0 c).flushed 5 t = ((cfg0.win 5).blk t).view.read (Elt Ideal) (out2d (Xa m c) (Wa m c) (Ca m c) (Aa m c) (Ba m c)) := by
  have h3 : t.val % 4 = 3 := (flush0_5 t).mp hf
  have hN : t.val < 128 := lt_of_lt_of_eq t.isLt (show cfg0.N = 128 from N_0)
  obtain ⟨-, -, -, -, -, -, -, -, -, -, e0, e1⟩ := idx_facts t
  show (cfg0.win 5).cut (grid0.coords t) ((dats m 0 c).after 5 t) = _
  rw [after0_5]
  funext j
  show (outsAt0 m c t.val t.isLt).1 j = out2d (Xa m c) (Wa m c) (Ca m c) (Aa m c) (Ba m c) (((cfg0.win 5).blk t).view.emb j)
  have hj0 : (j 0).val < 1024 := (j 0).isLt
  have hj1 : (j 1).val < 1024 := (j 1).isLt
  rw [flush_apply m c t h3 j ⟨1024 * (t.val / 16) + (j 0).val, by omega⟩ ⟨1024 * (t.val / 4 % 4) + (j 1).val, by omega⟩ rfl rfl]
  refine congrArg _ (funext fun a => Fin.ext ?_)
  match a with
  | ⟨0, _⟩ => show 1024 * (t.val / 16) + (j 0).val = win0_5.index t (0 : Fin 2) * 1024 + 1 * (j 0).val; omega
  | ⟨1, _⟩ => show 1024 * (t.val / 4 % 4) + (j 1).val = win0_5.index t (1 : Fin 2) * 1024 + 1 * (j 1).val; omega

/-! ## The cover, and the whole array -/

/-- An element of the output lies in point `t`'s block iff each coordinate is in the block's range on its axis. -/
theorem mem_blk (t : Fin cfg0.N) (i : S8192x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v2).slice (win0_5.rect t)).set ↔ _
  rw [View.set_slice_whole, Rect.mem_set_unit]
  exact Iff.rfl

/-- Every element of the output is in the block of the last contraction tile of its row block and feature block. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 128 := N_0
  let t : Fin cfg0.N := ⟨16 * ((i 0).val / 1024) + 4 * ((i 1).val / 1024) + 3, by rw [hN]; omega⟩
  have ht : t.val = 16 * ((i 0).val / 1024) + 4 * ((i 1).val / 1024) + 3 := rfl
  obtain ⟨-, -, -, -, -, -, -, -, -, -, e0, e1⟩ := idx_facts t
  refine ⟨t, (flush0_5 t).mpr (by omega), ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- THE OUTPUT ARRAY after the region is the 2-D specification of the arrays the region found. -/
theorem final (c : Dev nD) : (dats m 0 c).arrAt 5 cfg0.N = out2d (Xa m c) (Wa m c) (Ca m c) (Aa m c) (Ba m c) :=
  (dats m 0 c).arrAt_eq_of_cover 5 (out2d (Xa m c) (Wa m c) (Ca m c) (Aa m c) (Ba m c)) (flushed_eq m c) cover

end Cert.KernelIdeal.LoraValue

end
-- ==== Proof.LoraRun.lean ====
/-
  The kernel program's run, read: the result array is the fused specification of the five ARGUMENT arrays.

  Around the region the program only re-lays arrays out, row-major position kept:
    before:  the activations [4, 2048, 4096] are viewed as [8192, 4096]: row `2048·b + s` is `x[b, s, ·]`;
             the bias [4096] is viewed as one row [1, 4096];
    after:   the region's [8192, 4096] output is viewed as [4, 2048, 4096]: element `(b, s, o)` is row `2048·b + s`,
             feature `o`.
  The weight and the two low-rank factors reach the region as launched. So the 2-D specification of what the region
  found, re-laid, is the 3-D fused specification of the arguments, element by element.
-/
import proofs.«150796_j12171937317054_1_alg».proof.Proof.LoraBlocks
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.LoraValue
open Cert.KernelIdeal Cert.KernelIdeal.Gen

variable (m : (ℓ : Loc nD τ sig) → Buf (Elt Ideal) ℓ) (ρ : Dev nD → PrngReg)

/-! ## The three re-layouts, read at an element -/

/-- The flattened activations at (row `2048·b + s`, column `k`) are `x[b, s, k]`. -/
theorem flat_x (x : Vec Ideal S4x2048x4096 .f32) (b : Fin 4) (s : Fin 2048) (k : Fin 4096) (P : Fin 8192)
    (hP : P.val = 2048 * b.val + s.val) :
    shapeCast S8192x4096 x shapeCasts_S4x2048x4096_S8192x4096 (ix2 P k) = x (ix3 b s k) := by
  refine shapeCast_apply x _ (ix2 P k) (ix3 b s k) ?_
  rw [Shape.rowMajor_val_two, Shape.rowMajor_val_three]
  show (b.val * 2048 + s.val) * 4096 + k.val = P.val * 4096 + k.val
  omega

/-- The bias as one row, at column `o`, is `bias[o]`. -/
theorem flat_bias (bias : Vec Ideal S4096 .f32) (o : Fin 4096) :
    shapeCast S1x4096 bias shapeCasts_S4096_S1x4096 (ix2 (0 : Fin 1) o) = bias (ix1 o) := by
  refine shapeCast_apply bias _ (ix2 (0 : Fin 1) o) (ix1 o) ?_
  rw [Shape.rowMajor_val_two, Shape.rowMajor_val_one]
  show o.val = 0 * 4096 + o.val
  omega

/-- The region's output viewed as [4, 2048, 4096], at `(b, s, o)`, is its (row `2048·b + s`, feature `o`). -/
theorem unflat_out (G : Vec Ideal S8192x4096 .f32) (b : Fin 4) (s : Fin 2048) (o : Fin 4096) (P : Fin 8192)
    (hP : P.val = 2048 * b.val + s.val) :
    shapeCast S4x2048x4096 G shapeCasts_S8192x4096_S4x2048x4096 (ix3 b s o) = G (ix2 P o) := by
  refine shapeCast_apply G _ (ix3 b s o) (ix2 P o) ?_
  rw [Shape.rowMajor_val_two, Shape.rowMajor_val_three]
  show P.val * 4096 + o.val = (b.val * 2048 + s.val) * 4096 + o.val
  omega

/-! ## What the region finds, in terms of the arguments -/

theorem Xa_eq (c : Dev nD) :
    Xa m c = shapeCast S8192x4096 (m ((c : Thread nD τ).loc main_arg0)) shapeCasts_S4x2048x4096_S8192x4096 := by
  show StableHlo.after hostOps0 (fun b => m (c, b)) (Proc.devRef .tc main_v0) = _
  after_results
  rfl

theorem Ca_eq (c : Dev nD) :
    Ca m c = shapeCast S1x4096 (m ((c : Thread nD τ).loc main_arg2)) shapeCasts_S4096_S1x4096 := by
  show StableHlo.after hostOps0 (fun b => m (c, b)) (Proc.devRef .tc main_v1) = _
  after_results
  rfl

theorem Wa_eq (c : Dev nD) : Wa m c = m ((c : Thread nD τ).loc main_arg1) := V_main_arg1 m c
theorem Aa_eq (c : Dev nD) : Aa m c = m ((c : Thread nD τ).loc main_arg3) := V_main_arg3 m c
theorem Ba_eq (c : Dev nD) : Ba m c = m ((c : Thread nD τ).loc main_arg4) := V_main_arg4 m c

/-! ## The result array -/

/-- The result buffer after the last re-layout is the region's output array, re-laid. -/
theorem tail_eq (c : Dev nD) :
    Pipeline.afterTail₀ cfgs (dats m) 0 (V0 m) [hostOps1] c main_v3
      = shapeCast S4x2048x4096 (out2d (Xa m c) (Wa m c) (Ca m c) (Aa m c) (Ba m c)) shapeCasts_S8192x4096_S4x2048x4096 := by
  unfold Pipeline.afterTail₀
  show StableHlo.after hostOps1 _ (Proc.devRef .tc main_v3) = _
  after_results
  exact congrArg (fun v => shapeCast S4x2048x4096 v shapeCasts_S8192x4096_S4x2048x4096)
    ((Pipeline.withArrays_arr spec0 launch0.win.arr_inj c _ _ 5).trans (final m c))

/-- The fused specification of the arguments. -/
abbrev result (c : Dev nD) : Vec Ideal S4x2048x4096 .f32 :=
  Cert.Lora.outFused (m ((c : Thread nD τ).loc main_arg0)) (m ((c : Thread nD τ).loc main_arg1)) (m ((c : Thread nD τ).loc main_arg2))
    (m ((c : Thread nD τ).loc main_arg3)) (m ((c : Thread nD τ).loc main_arg4)) (Ideal.ofBits .f32 0x00000000#32) (Ideal.ofBits .f32 0x3F800000#32)

/-- The region's output, re-laid, IS the fused specification of the arguments. -/
theorem relaid_eq (c : Dev nD) :
    shapeCast S4x2048x4096 (out2d (Xa m c) (Wa m c) (Ca m c) (Aa m c) (Ba m c)) shapeCasts_S8192x4096_S4x2048x4096 = result m c := by
  funext i
  obtain ⟨b, s, o, rfl⟩ : ∃ (b : Fin 4) (s : Fin 2048) (o : Fin 4096), i = ix3 b s o := ⟨i 0, i 1, i 2, eq_ix3 i⟩
  have hb := b.isLt
  have hs := s.isLt
  rw [unflat_out _ b s o ⟨2048 * b.val + s.val, by omega⟩ rfl]
  have hX : (fun k => Xa m c (ix2 (⟨2048 * b.val + s.val, by omega⟩ : Fin 8192) k))
      = Cert.Lora.xrow (m ((c : Thread nD τ).loc main_arg0)) (ix3 b s o) :=
    funext fun k => by rw [Xa_eq]; exact flat_x _ b s k _ rfl
  have hC : Ca m c (ix2 (0 : Fin 1) o) = m ((c : Thread nD τ).loc main_arg2) (ix1 o) := by
    rw [Ca_eq]; exact flat_bias _ o
  show Cert.Lora.fused (fun k => Xa m c (ix2 (⟨2048 * b.val + s.val, by omega⟩ : Fin 8192) k)) (fun k => Wa m c (ix2 o k))
      (fun r => Aa m c (ix2 o r)) (fun r k => Ba m c (ix2 r k)) (Ca m c (ix2 (0 : Fin 1) o)) (Ideal.ofBits .f32 0x00000000#32) (Ideal.ofBits .f32 0x3F800000#32) = _
  rw [hX, hC, Wa_eq, Aa_eq, Ba_eq]
  rfl

/-! ## The run, read -/

/-- Every weakly fair execution of the kernel program terminates with the result buffer at the fused specification of
    the arguments, and the arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v3 (Pipeline.mem_restRefs_of main_v3 (by decide) (by decide))).trans (tail_eq m c)).trans (relaid_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.LoraValue

end
-- ==== Proof.LoraRef.lean ====
/-
  The reference program's result array, read one operation at a time, IS the specification's unfused form,
  element by element.

  At output element `i = (b, s, o)` the reference's ten operations are, in the unfused form
      (∑ k, x[b,s,k] · W[o,k]  +  bias[o])  +  1 · ∑ k, x[b,s,k] · ∑ r, A[o,r] · B[r,k] :

    %0   dot_general x, W  (contracting x's last axis with W's last axis)   the base projection  ∑ k, x[b,s,k] · W[o,k]
    %1   broadcast of bias to [1, 1, 4096]                                  bias, read at its one coordinate
    %2   broadcast of %1 to [4, 2048, 4096]                                 bias[o]: only the last coordinate of `i` is read
    %3   %0 + %2                                                            the first summand  ∑ k, x[b,s,k] · W[o,k] + bias[o]
    %4   dot_general A, B  (contracting the rank axis of 16)                the low-rank product  (A · B)[o,k] = ∑ r, A[o,r] · B[r,k]
    %5   dot_general x, %4 (same dimension numbers as %0)                   the update  ∑ k, x[b,s,k] · (A · B)[o,k]
    %cst the scalar constant 1.0                                            the scale, kept as the word it is written with
    %6   broadcast of %cst to [4, 2048, 4096]                               the scale at every element
    %7   %6 · %5                                                            the scaled update  1 · ∑ k, x[b,s,k] · ∑ r, A[o,r] · B[r,k]
    %8   %3 + %7                                                            the result

  Each operation read at an index reads its operands at indices given coordinate by coordinate; those index
  functions are the coordinate constructors `ix1` / `ix2` / `ix3` the specification is written with (six equations,
  each by cases on the axis). At the ideal instance the element sum and product are the extended reals' `+` and `·`.
  The scale `1.0` is never evaluated: both sides carry the same word.
-/
import proofs.«150796_j12171937317054_1_alg».proof.Proof.Gen.ReferenceIdeal.Read
import proofs.«150796_j12171937317054_1_alg».proof.Proof.LoraSpec

noncomputable section

namespace Cert.ReferenceIdeal.RefValue

open Idealize.ShloMosaic Cert.ReferenceIdeal
open Idealize.ShloMosaic.ValueIdx Cert.ReferenceIdeal.Read

/-! ## The operations' index functions are the coordinate constructors -/

/-- The base projection reads `x` at `(b, s, k)`. -/
theorem lidx_v0 (i : S4x2048x4096.Idx) (k : Fin 4096) : lidx_main_v0 i k = ix3 (i 0) (i 1) k :=
  funext fun a => by match a with | ⟨0, _⟩ => rfl | ⟨1, _⟩ => rfl | ⟨2, _⟩ => rfl

/-- The base projection reads `W` at `(o, k)`. -/
theorem ridx_v0 (i : S4x2048x4096.Idx) (k : Fin 4096) : ridx_main_v0 i k = ix2 (i 2) k :=
  funext fun a => by match a with | ⟨0, _⟩ => rfl | ⟨1, _⟩ => rfl

/-- The two broadcasts of the bias read it at `o`. -/
theorem idx_v1_v2 (i : S4x2048x4096.Idx) : idx_main_v1 (idx_main_v2 i) = ix1 (i 2) :=
  funext fun a => by match a with | ⟨0, _⟩ => rfl

/-- The update reads `x` at `(b, s, k)`. -/
theorem lidx_v5 (i : S4x2048x4096.Idx) (k : Fin 4096) : lidx_main_v5 i k = ix3 (i 0) (i 1) k :=
  funext fun a => by match a with | ⟨0, _⟩ => rfl | ⟨1, _⟩ => rfl | ⟨2, _⟩ => rfl

/-- Under the update, the low-rank product at `(o, k)` reads `A` at `(o, r)` … -/
theorem lidx_v4_v5 (i : S4x2048x4096.Idx) (k : Fin 4096) (r : Fin 16) :
    lidx_main_v4 (ridx_main_v5 i k) r = ix2 (i 2) r :=
  funext fun a => by match a with | ⟨0, _⟩ => rfl | ⟨1, _⟩ => rfl

/-- … and `B` at `(r, k)`. -/
theorem ridx_v4_v5 (i : S4x2048x4096.Idx) (k : Fin 4096) (r : Fin 16) :
    ridx_main_v4 (ridx_main_v5 i k) r = ix2 r k :=
  funext fun a => by match a with | ⟨0, _⟩ => rfl | ⟨1, _⟩ => rfl

/-! ## The result -/

/-- The reference's result stage, at the ideal instance, is the unfused specification of the five argument arrays. -/
theorem result_eq (x0 : FVec Ideal S4x2048x4096 .f32) (x1 : FVec Ideal S4096x4096 .f32) (x2 : FVec Ideal S4096 .f32)
    (x3 : FVec Ideal S4096x16 .f32) (x4 : FVec Ideal S16x4096 .f32) :
    Cert.ReferenceIdeal.Read.val_main_v8 (F := Ideal) x0 x1 x2 x3 x4
      = Cert.Lora.outUnfused x0 x1 x2 x3 x4 (Ideal.ofBits .f32 0x3F800000#32) := by
  funext i
  rw [val_main_v8_apply, val_main_v3_apply, val_main_v7_apply, val_main_v0_apply, val_main_v2_apply, val_main_v1_apply,
    val_main_v6_apply, val_main_cst_apply, val_main_v5_apply]
  simp only [val_main_v4_apply, lidx_v0, ridx_v0, idx_v1_v2, lidx_v5, lidx_v4_v5, ridx_v4_v5,
    Ideal.addf_def, Ideal.mulf_def, Ideal.ofBits_def]
  rfl

end Cert.ReferenceIdeal.RefValue

end
-- ==== Proof.LoraFinite.lean ====
/-
  THE PRECONDITION "EVERY FLOAT INPUT IS FINITE", READ BACK ENTRY BY ENTRY.

  The printed precondition is, for each of the five input arrays a, the scalar  all(|a| < +inf)  — the absolute value
  taken elementwise, compared strictly with the constant whose IEEE pattern 0x7F800000 is +infinity, and the resulting
  array of truth values folded by "and" from the constant true over every axis — and the five scalars joined by "and".
  The claim's hypothesis says the result is true.

  Read at the ideal instance a float is an extended real, the absolute value of a is max a (-a), the comparison is the
  strict order of the extended reals and the pattern 0x7F800000 denotes ⊤. A conjunction of truth values that is true
  has both its members true; a fold by "and" that came out true met only true entries; so for every array a and every
  index i we have  max (a i) (-(a i)) < ⊤.  An extended real is ⊥, a real number, or ⊤. If a i = ⊤ then max ⊤ ⊥ = ⊤,
  and if a i = ⊥ then max ⊥ ⊤ = ⊤: either way the strict inequality fails. Hence a i is a real number: the absolute
  value being strictly below +infinity excludes exactly the two infinite values (and an unordered value has no
  counterpart here: it is read as ⊥, whose absolute value is ⊤ as well).
-/
import proofs.«150796_j12171937317054_1_alg».proof.Pre_finite_inputs
import Idealize.ShloMosaic.PureOps.Ideal
import Idealize.ShloMosaic.Lib.ReduceAll
import Idealize.ShloMosaic.Lib.ValueIdx

noncomputable section

namespace Cert.Lora.Finite

open Idealize.ShloMosaic Cert.Pre_finite_inputs

/-- The scalar shape has one index. -/
instance : Subsingleton S_.Idx := ⟨fun a b => funext fun d => d.elim0⟩

/-- An extended real whose absolute value max a (-a) lies strictly below ⊤ is a real number: at ⊤ and at ⊥ the
    absolute value is ⊤ itself. -/
theorem real_of_abs_lt_top (a : EReal) (h : max a (-a) < ⊤) : ∃ r : ℝ, a = (r : EReal) := by
  induction a using EReal.rec with
  | bot => simp at h
  | coe r => exact ⟨r, rfl⟩
  | top => simp at h

/-- ONE ARRAY'S CONJUNCT DECODED, for any shape: if all(|a| < +inf), folded over every axis into the scalar shape from
    any initial value, is true, then every entry of a is a real number. -/
theorem all_real {s : Shape} {axes : List (Fin s.rank)} (a : FVec Ideal s .f32)
    (hb : S_.BroadcastsInDim s (![] : Fin 0 → Fin s.rank)) (hr : s.ReducesTo axes S_) (h0 : 0 < S_.numel)
    (init : IVec S_ 1)
    (e : Host.reduce IntOp.andi
          (cmpf .olt (Host.absf a) (broadcastInDim s ![] hb (constant (F := Ideal) S_ .f32 0x7F800000#32)))
          init hr h0 ValueIdx.ix0 = 1#1)
    (i : s.Idx) : ∃ r : ℝ, a i = (r : EReal) := by
  have hi := Host.reduce_andi_all _ init hr h0 ValueIdx.ix0 e i
  apply real_of_abs_lt_top
  have hlt : max (a i) (-(a i)) < Ideal.ofBits .f32 0x7F800000#32 := by
    by_contra hn
    have : (cmpf .olt (Host.absf a) (broadcastInDim s ![] hb (constant (F := Ideal) S_ .f32 0x7F800000#32))) i = 0#1 := by
      show BitVec.ofBool (decide (max (a i) (-(a i)) < Ideal.ofBits .f32 0x7F800000#32)) = 0#1
      rw [decide_eq_false hn]; rfl
    rw [this] at hi
    exact absurd hi (by decide)
  simpa [Ideal.ofBits, Ideal.ieee] using hlt

/-- From the printed precondition to the entries: every entry of each of the five input arrays is a real number. -/
theorem entries_real [Cert.Pre_finite_inputs.Facts]
    (x0 : FVec Ideal S4x2048x4096 .f32) (x1 : FVec Ideal S4096x4096 .f32) (x2 : FVec Ideal S4096 .f32)
    (x3 : FVec Ideal S4096x16 .f32) (x4 : FVec Ideal S16x4096 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have e := congrFun h ValueIdx.ix0
  dsimp only [Cert.Pre_finite_inputs.fn, Cert.Pre_finite_inputs.fn_part1] at e
  obtain ⟨e123, e4⟩ := IntOp.andi_eq_one.1 e
  obtain ⟨e12, e3⟩ := IntOp.andi_eq_one.1 e123
  obtain ⟨e01, e2⟩ := IntOp.andi_eq_one.1 e12
  obtain ⟨e0, e1⟩ := IntOp.andi_eq_one.1 e01
  exact ⟨all_real x0 _ _ _ _ e0, all_real x1 _ _ _ _ e1, all_real x2 _ _ _ _ e2, all_real x3 _ _ _ _ e3,
    all_real x4 _ _ _ _ e4⟩

end Cert.Lora.Finite

end
-- ==== Proof.lean ====
/-
  A LoRA linear layer, fused, against its unfused reference, over the extended reals.

  The kernel computes, for activations `x` f32[4, 2048, 4096], base weight `W` f32[4096, 4096], bias f32[4096] and
  low-rank factors `A` f32[4096, 16], `B` f32[16, 4096],
        out[b, s, o] = ∑ i, x[b, s, i] · (W[o, i] + 1 · ∑ r, A[o, r] · B[r, i]) + bias[o],
  merging the low-rank update into each weight tile before the one large product, and accumulating the contraction in
  four tiles of 1024 columns in a scratch accumulator (reset at the first tile, the bias added and the block stored at
  the last). The reference keeps the two products apart:
        ref[b, s, o] = (∑ i, x[b, s, i] · W[o, i] + bias[o]) + 1 · ∑ i, x[b, s, i] · ∑ r, A[o, r] · B[r, i].

  Over the extended reals the two agree wherever every entry is finite: splitting the contraction into tiles and
  regrouping sums needs nothing, and the one distributive step `x · (w + d) = x · w + x · d` holds on real numbers
  (Proof/LoraAlgebra.lean). The precondition says exactly that every entry is finite (Proof/LoraFinite.lean). The
  kernel's result array is the fused form of the arguments (Proof/LoraPieces.lean, LoraPayload.lean, LoraBlocks.lean,
  LoraRun.lean, over the generated frame run); the reference's result is the unfused form (Proof/LoraRef.lean, over the
  generated run and its read-at-an-index lemmas). The idealization rewrote nothing, so `preserves` is trivially true.
-/
import proofs.«150796_j12171937317054_1_alg».proof.Defs
import proofs.«150796_j12171937317054_1_alg».proof.Proof.Gen.Kernel
import proofs.«150796_j12171937317054_1_alg».proof.Proof.Gen.Kernel.Skeleton
import proofs.«150796_j12171937317054_1_alg».proof.Proof.Gen.Kernel.Launch
import proofs.«150796_j12171937317054_1_alg».proof.Proof.Gen.Kernel.Points
import proofs.«150796_j12171937317054_1_alg».proof.Proof.Gen.Kernel.Frame
import proofs.«150796_j12171937317054_1_alg».proof.Proof.Gen.KernelIdeal
import proofs.«150796_j12171937317054_1_alg».proof.Proof.Gen.KernelIdeal.Skeleton
import proofs.«150796_j12171937317054_1_alg».proof.Proof.Gen.KernelIdeal.Launch
import proofs.«150796_j12171937317054_1_alg».proof.Proof.Gen.KernelIdeal.Points
import proofs.«150796_j12171937317054_1_alg».proof.Proof.Gen.KernelIdeal.Frame
import proofs.«150796_j12171937317054_1_alg».proof.Proof.Gen.ReferenceIdeal
import proofs.«150796_j12171937317054_1_alg».proof.Proof.Gen.Pre_finite_inputs
import proofs.«150796_j12171937317054_1_alg».proof.Proof.Gen.ReferenceIdeal.Run
import proofs.«150796_j12171937317054_1_alg».proof.Proof.Gen.ReferenceIdeal.Read
import proofs.«150796_j12171937317054_1_alg».proof.Proof.LoraRun
import proofs.«150796_j12171937317054_1_alg».proof.Proof.LoraRef
import proofs.«150796_j12171937317054_1_alg».proof.Proof.LoraFinite
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the result at the fused form of the kernel's arguments: the
    kernel's by its run, the reference's because its unfused form of the same arrays is, their entries being finite, the
    fused one. -/
theorem algebraic : Cert.algebraic_KernelIdeal_ReferenceIdeal := by
  intro m ρ m' ρ' hpre hagree
  refine ⟨fun c => Cert.KernelIdeal.LoraValue.result m c, Cert.KernelIdeal.LoraValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v8_eq, Cert.ReferenceIdeal.RefValue.result_eq]
  obtain ⟨hx, hW, hb, hA, hB⟩ := Cert.Lora.Finite.entries_real _ _ _ _ _ (hpre c)
  exact (Cert.Lora.outFused_eq_outUnfused _ _ _ _ _ _ _ hx hW hb hA hB Ideal.ofBits_zero_f32
    (IdealRules.sign_bit.ideal_onePat .f32)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
